-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v29 : IVec S_ 1) (main_v33 : IVec S1600000 1) (main_c_11 : IVec S_ 1) : IVec S_ 1 :=
  let main_v34 : IVec S_ 1 := (fun x v => Host.reduce IntOp.andi x v reducesTo_S1600000_S_d0 h_S_) main_v33 main_c_11
  let main_v35 : IVec S_ 1 := andi main_v29 main_v34
  main_v35

def fn_part1 {F : FTy → Type} [FloatOps F] (main_arg1 : IVec S2x1600000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  let main_v30 : IVec S1x1600000 32 := (extractStridedSlice S1x1600000 ![0, 0] · slices_S2x1600000_S1x1600000_0_0) main_arg1
  let main_v31 : IVec S1600000 32 := shapeCast S1600000 main_v30 shapeCasts_S1x1600000_S1600000
  let main_c_10 : IVec S_ 32 := constantI S_ 32 100000#32
  let main_v32 : IVec S1600000 32 := broadcastInDim S1600000 ![] bcast_S_S1600000 main_c_10
  let main_v33 : IVec S1600000 1 := cmpi .slt main_v31 main_v32
  let main_c_11 : IVec S_ 1 := constantI S_ 1 1#1
  fn_part2 (F := F) main_v29 main_v33 main_c_11

def fn {F : FTy → Type} [FloatOps F] (main_arg0 : FVec F S100000x256 .f32) (main_arg1 : IVec S2x1600000 32) (main_arg2 : FVec F S256x256 .f32) (main_arg3 : FVec F S256 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S100000x128 : Shape := ⟨2, ![100000, 128]⟩
abbrev S4000x256 : Shape := ⟨2, ![4000, 256]⟩
abbrev S4000x128 : Shape := ⟨2, ![4000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 42
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S4000x128, .f32⟩
  | .local _ .vmem, ⟨6, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S100000x128 : Shape := ⟨2, ![100000, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.HostTail.lean ====
/-
  What the host lines after the pallas region compute, as one function of three arrays: the region's output `hw`
  ([100000, 128]), the edge list ([2, 1600000], row 0 the source node of each edge, row 1 its target) and the bias `b2`.

    out[n, :] = b2 + Σ over edges e with dst e = n of row (src e) of hw

  spelt as the program spells it: the source ids normalised (a negative id counts from the end), the rows gathered, a row
  whose id is still outside [0, 99999] replaced by the fill word, the rows summed into zeros by target, the bias added.
-/
import proofs.«415539_j64484638982599_1_alg».proof.Proof.Gen.KernelIdeal.Frame
import Idealize.ShloMosaic.Lib.StableHlo.Run

noncomputable section

namespace Cert.KernelIdeal.HostTail

open Idealize.ShloMosaic Idealize.ShloMosaic.TcCoe Idealize.SL.Sem Idealize.ShloMosaic.StableHlo
open Cert.KernelIdeal Cert.KernelIdeal.Gen

variable {F : FTy → Type} [FloatOps F]

/-- Row 0 of the edge list: each edge's source node. -/
def srcIds (e : IVec S2x1600000 32) : IVec S1600000 32 :=
  shapeCast S1600000 (extractStridedSlice S1x1600000 ![0, 0] e slices_S2x1600000_S1x1600000_0_0) shapeCasts_S1x1600000_S1600000

/-- Row 1 of the edge list: each edge's target node. -/
def dstIds (e : IVec S2x1600000 32) : IVec S1600000 32 :=
  shapeCast S1600000 (extractStridedSlice S1x1600000 ![1, 0] e slices_S2x1600000_S1x1600000_1_0) shapeCasts_S1x1600000_S1600000

/-- A node id as a row number: `id + 100000` when `id < 0`, else `id`; laid out as a column of start indices. -/
def rowOf (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per component of the start index (there is one): `0 ≤ r` and `r ≤ 99999`. -/
def rangeBits (r : IVec S1600000x1 32) : IVec S1600000x1 1 :=
  andi (cmpi .sge r (broadcastInDim S1600000x1 ![] bcast_S_S1600000x1 (constantI S_ 32 0#32)))
    (cmpi .sle r (broadcastInDim S1600000x1 ![0, 1] bcast_S1x1_S1600000x1_0_1
      (broadcastInDim S1x1 ![1] bcast_S1_S1x1_1 (constantI S1 32 99999#32))))

/-- Per edge: is the row number inside `[0, 99999]`? (The conjunction over the start index's components.) -/
def inRange (r : IVec S1600000x1 32) : IVec S1600000 1 :=
  Host.reduce IntOp.andi (rangeBits r) (constantI S_ 1 1#1) reducesTo_S1600000x1_S1600000_d1 h_S_

/-- The rows of `hw` at the row numbers `r`, a row whose number is out of range replaced by the fill word. -/
def takeFill (hw : FVec F S100000x128 .f32) (r : IVec S1600000x1 32) : FVec F S1600000x128 .f32 :=
  select (broadcastInDim S1600000x128 ![0] bcast_S1600000_S1600000x128_0 (inRange r))
    (Host.gather gather_S100000x128_S1600000x1_S1600000x128_1_0_n_n_0_1_1128 hw r)
    (broadcastInDim S1600000x128 ![] bcast_S_S1600000x128 (constant S_ .f32 0x7FC00000#32))

/-- The per-edge rows summed by target node into zeros, then the bias added to every row. -/
def aggregate (rows : FVec F S1600000x128 .f32) (d : IVec S1600000 32) (b2 : FVec F S128 .f32) : FVec F S100000x128 .f32 :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) rows)
    (broadcastInDim S100000x128 ![0, 1] bcast_S1x128_S100000x128_0_1 (broadcastInDim S1x128 ![1] bcast_S128_S1x128_1 b2))

/-! ## The three stretches of host lines, one at a time

The lines after the region come in three stretches: the two rows of the edge list cut out; the take (23 lines); the
segment sum and the bias. Each stretch writes its own result buffers and leaves the others as they were. -/

theorem after_append (l1 l2 : List (HloOp τ sig (Elt F))) (V : Valuation τ sig (Elt F)) :
    StableHlo.after (l1 ++ l2) V = StableHlo.after l2 (StableHlo.after l1 V) := by
  induction l1 generalizing V with
  | nil => rfl
  | cons a l ih => exact ih _

/-- The first stretch leaves the source ids in its first result, -/
theorem cut_src (W : Valuation τ sig (Elt F)) :
    StableHlo.after hostOps1 W (Proc.devRef .tc main_v3) = srcIds (W (Proc.devRef .tc main_arg1)) := by
  unfold srcIds
  simp only [hostOps1]
  after_results <;> rfl

/-- the target ids in its second, -/
theorem cut_dst (W : Valuation τ sig (Elt F)) :
    StableHlo.after hostOps1 W (Proc.devRef .tc main_v5) = dstIds (W (Proc.devRef .tc main_arg1)) := by
  unfold dstIds
  simp only [hostOps1]
  after_results <;> rfl

/-- and the region's output and the bias untouched. -/
theorem cut_keeps_hw (W : Valuation τ sig (Elt F)) :
    StableHlo.after hostOps1 W (Proc.devRef .tc main_v1) = W (Proc.devRef .tc main_v1) := by
  simp only [hostOps1]
  after_results <;> rfl

theorem cut_keeps_b2 (W : Valuation τ sig (Elt F)) :
    StableHlo.after hostOps1 W (Proc.devRef .tc main_arg5) = W (Proc.devRef .tc main_arg5) := by
  simp only [hostOps1]
  after_results <;> rfl

/-! ### The take, cut at the reduction of its range test

The 23 lines of the take are its first 17 (the row numbers and the two comparisons), the one reduction of the range test over
the start index's components, and the last 5 (the gather, the fill and the selection). The reduction is a fold over 1.6
million indices: it is kept a whole term, read off its own one-line stretch, and never meets an index. -/

/-- The take's first 17 lines. -/
abbrev takeHead : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v3 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v3 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v3 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1) ]

/-- The reduction of the range test. -/
abbrev takeTest : List (HloOp τ sig (Elt F)) :=
  [ StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The take's last 5 lines. -/
abbrev takeRest : List (HloOp τ sig (Elt F)) :=
  [ StableHlo.TRef.binary (.of main_v1 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v6 : StableHlo.TRef sig ⟨S1600000x128, .f32⟩) select ]

theorem take_split : (hostOps1_1 : List (HloOp τ sig (Elt F))) = takeHead ++ (takeTest ++ takeRest) := rfl

set_option maxHeartbeats 2000000 in
/-- The first 17 lines leave the row numbers, -/
theorem head_rows (W : Valuation τ sig (Elt F)) :
    StableHlo.after takeHead W (Proc.devRef .tc main_call0_v5) = rowOf (W (Proc.devRef .tc main_v3)) := by
  unfold rowOf
  simp only [takeHead]
  after_results <;> rfl

set_option maxHeartbeats 2000000 in
/-- their range bits, -/
theorem head_bits (W : Valuation τ sig (Elt F)) :
    StableHlo.after takeHead W (Proc.devRef .tc main_call0_v11) = rangeBits (rowOf (W (Proc.devRef .tc main_v3))) := by
  unfold rangeBits rowOf
  simp only [takeHead]
  after_results <;> rfl

set_option maxHeartbeats 2000000 in
/-- the constant 1 the reduction starts from, -/
theorem head_one (W : Valuation τ sig (Elt F)) :
    StableHlo.after takeHead W (Proc.devRef .tc main_call0_c_3) = constantI S_ 1 1#1 := by
  simp only [takeHead]
  after_results <;> rfl

set_option maxHeartbeats 2000000 in
/-- and the region's output untouched. -/
theorem head_keeps_hw (W : Valuation τ sig (Elt F)) :
    StableHlo.after takeHead W (Proc.devRef .tc main_v1) = W (Proc.devRef .tc main_v1) := by
  simp only [takeHead]
  after_results <;> rfl

/-- The reduction line leaves the conjunction of the bits it finds, from the initial value it finds, -/
theorem test_result (W : Valuation τ sig (Elt F)) :
    StableHlo.after takeTest W (Proc.devRef .tc main_call0_v12)
      = Host.reduce IntOp.andi (W (Proc.devRef .tc main_call0_v11)) (W (Proc.devRef .tc main_call0_c_3))
          reducesTo_S1600000x1_S1600000_d1 h_S_ := by
  simp only [takeTest]
  after_results
  -- the stored value is the computed one, carried along the equation between the buffer's type and the value's
  refine eq_of_heq ((cast_heq _ _).trans (heq_of_eq ?_))
  rfl

/-- and the row numbers and the region's output untouched. -/
theorem test_keeps_rows (W : Valuation τ sig (Elt F)) :
    StableHlo.after takeTest W (Proc.devRef .tc main_call0_v5) = W (Proc.devRef .tc main_call0_v5) := by
  simp only [takeTest]
  after_results <;> rfl

theorem test_keeps_hw (W : Valuation τ sig (Elt F)) :
    StableHlo.after takeTest W (Proc.devRef .tc main_v1) = W (Proc.devRef .tc main_v1) := by
  simp only [takeTest]
  after_results <;> rfl

/-- The last 5 lines select, per edge, the gathered row where the test is true and the fill word elsewhere. -/
theorem rest_result (W : Valuation τ sig (Elt F)) :
    StableHlo.after takeRest W (Proc.devRef .tc main_v6)
      = select (broadcastInDim S1600000x128 ![0] bcast_S1600000_S1600000x128_0 (W (Proc.devRef .tc main_call0_v12)))
          (Host.gather gather_S100000x128_S1600000x1_S1600000x128_1_0_n_n_0_1_1128 (W (Proc.devRef .tc main_v1))
            (W (Proc.devRef .tc main_call0_v5)))
          (broadcastInDim S1600000x128 ![] bcast_S_S1600000x128 (constant S_ .f32 0x7FC00000#32)) := by
  simp only [takeRest]
  after_results <;> rfl

/-- The second stretch leaves the filled take of the region's output at the normalised source ids, -/
theorem take_result (W : Valuation τ sig (Elt F)) :
    StableHlo.after hostOps1_1 W (Proc.devRef .tc main_v6)
      = takeFill (W (Proc.devRef .tc main_v1)) (rowOf (W (Proc.devRef .tc main_v3))) := by
  rw [take_split, after_append, after_append, rest_result, test_result, test_keeps_rows, test_keeps_hw, head_bits, head_one,
    head_keeps_hw, head_rows]
  rfl

set_option maxHeartbeats 2000000 in
/-- and the target ids and the bias untouched. -/
theorem take_keeps_dst (W : Valuation τ sig (Elt F)) :
    StableHlo.after hostOps1_1 W (Proc.devRef .tc main_v5) = W (Proc.devRef .tc main_v5) := by
  simp only [hostOps1_1]
  after_results <;> rfl

set_option maxHeartbeats 2000000 in
theorem take_keeps_b2 (W : Valuation τ sig (Elt F)) :
    StableHlo.after hostOps1_1 W (Proc.devRef .tc main_arg5) = W (Proc.devRef .tc main_arg5) := by
  simp only [hostOps1_1]
  after_results <;> rfl

/-- The third stretch sums the rows by target and adds the bias. -/
theorem sum_result (W : Valuation τ sig (Elt F)) :
    StableHlo.after hostOps1_2 W (Proc.devRef .tc main_v12)
      = aggregate (W (Proc.devRef .tc main_v6)) (W (Proc.devRef .tc main_v5)) (W (Proc.devRef .tc main_arg5)) := by
  unfold aggregate
  simp only [hostOps1_2]
  after_results <;> rfl

/-- The 34 host lines after the region, run from any buffer contents `W`, leave in the result buffer the aggregate of
    the filled take of the region's output. -/
theorem after_tail (W : Valuation τ sig (Elt F)) :
    StableHlo.after (hostOps1 ++ (hostOps1_1 ++ hostOps1_2)) W (Proc.devRef .tc main_v12)
      = aggregate (takeFill (W (Proc.devRef .tc main_v1)) (rowOf (srcIds (W (Proc.devRef .tc main_arg1)))))
          (dstIds (W (Proc.devRef .tc main_arg1))) (W (Proc.devRef .tc main_arg5)) := by
  rw [after_append, after_append, sum_result, take_result, take_keeps_dst, take_keeps_b2, cut_src, cut_dst, cut_keeps_hw,
    cut_keeps_b2]

end Cert.KernelIdeal.HostTail

end
-- ==== Proof.BodyValue.lean ====
/-
  One grid point's arithmetic at the exact values, read at an entry. The body takes a [4000, 256] block of node features
  `x`, the weights `W1` [256, 256] and `W2` [256, 128] and the bias row `b1` [1, 256], and stores

    out[p, q] = Σ_k max(Σ_j x[p, j] · W1[j, k] + b1[0, k], 0) · W2[k, q].

  The changes of float format inside the body are the identity on exact values, and each matrix product into a zero
  accumulator is the plain sum over its contracted axis.
-/
import proofs.«415539_j64484638982599_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Idealize.ShloMosaic Idealize.ShloMosaic.TcCoe Idealize.ShloMosaic.ValueIdx
open Cert.KernelIdeal Cert.KernelIdeal.Gen

/-! ## The first product's operand indices: row `i 0` of the left operand, column `i 1` of the right -/

theorem lhsA_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhsA_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhsA_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhsA_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The first product into zeros, at `(p, k)`: the sum over `j` of `a[p, j] · b[j, k]`. -/
theorem productA_apply {φ₁ φ₂ : FTy} (a : FVec Ideal S4000x256 φ₁) (b : FVec Ideal S256x256 φ₂) (p : Fin 4000) (k : Fin 256) :
    matmul dot_S4000x256_S256x256_S4000x256_1_0_0_1_n_n none a b (constant S4000x256 .f32 0x00000000#32) (ix2 p k)
      = ∑ j : Fin 256, a (ix2 p j) * b (ix2 j k) := by
  simp only [matmul]
  rw [Ideal.matmul_constant_zero_apply, ← Equiv.sum_comp (ValueIdx.contrEquiv1 dot_S4000x256_S256x256_S4000x256_1_0_0_1_n_n 256 rfl rfl).symm]
  refine Finset.sum_congr rfl fun j _ => ?_
  have hj := ValueIdx.contrEquiv1_symm_val dot_S4000x256_S256x256_S4000x256_1_0_0_1_n_n 256 rfl rfl j
  have el : dot_S4000x256_S256x256_S4000x256_1_0_0_1_n_n.lhsIdx (ix2 p k) ((ValueIdx.contrEquiv1 dot_S4000x256_S256x256_S4000x256_1_0_0_1_n_n 256 rfl rfl).symm j) = ix2 p j := funext fun a => Fin.ext (by
    match a with
    | ⟨0, _⟩ => exact lhsA_0 _ _
    | ⟨1, _⟩ => exact (lhsA_1 _ _).trans hj)
  have er : dot_S4000x256_S256x256_S4000x256_1_0_0_1_n_n.rhsIdx (ix2 p k) ((ValueIdx.contrEquiv1 dot_S4000x256_S256x256_S4000x256_1_0_0_1_n_n 256 rfl rfl).symm j) = ix2 j k := funext fun a => Fin.ext (by
    match a with
    | ⟨0, _⟩ => exact (rhsA_0 _ _).trans hj
    | ⟨1, _⟩ => exact rhsA_1 _ _)
  rw [el, er]

/-! ## The second product's operand indices -/

theorem lhsB_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhsB_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhsB_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhsB_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The second product into zeros, at `(p, q)`: the sum over `k` of `a[p, k] · b[k, q]`. -/
theorem productB_apply {φ₁ φ₂ : FTy} (a : FVec Ideal S4000x256 φ₁) (b : FVec Ideal S256x128 φ₂) (p : Fin 4000) (q : Fin 128) :
    matmul dot_S4000x256_S256x128_S4000x128_1_0_0_1_n_n none a b (constant S4000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The bias row laid over the block -/

/-- The [1, 256] bias row broadcast down the 4000 rows reads, at `(p, k)`, its entry `(0, k)`. -/
theorem biasRow_apply (b : FVec Ideal S1x256 .f32) (p : Fin 4000) (k : Fin 256) :
    broadcastTo S4000x256 (shapeCast S1x256 b shapeCasts_S1x256_S1x256) broadcasts_S1x256_S4000x256 (ix2 p k) = b (ix2 (0 : Fin 1) k) := by
  rw [shapeCast_self]
  refine broadcastTo_apply b _ (ix2 p k) (ix2 (0 : Fin 1) k) fun a => ?_
  match a with
  | ⟨0, _⟩ => rfl
  | ⟨1, _⟩ => rfl

/-! ## The body's stored value at an entry -/

/-- The hidden activation of row `p` at unit `k`: `max(Σ_j x[p, j] · W1[j, k] + b1[0, k], 0)`. -/
def hidden (x : FVec Ideal S4000x256 .f32) (w1 : FVec Ideal S256x256 .f32) (b1 : FVec Ideal S1x256 .f32) (p : Fin 4000) (k : Fin 256) : EReal :=
  max ((∑ j : Fin 256, x (ix2 p j) * w1 (ix2 j k)) + b1 (ix2 (0 : Fin 1) k)) 0

theorem payload_apply (x : Vec Ideal S4000x256 .f32) (w1 : Vec Ideal S256x256 .f32) (b1 : Vec Ideal S1x256 .f32) (w2 : Vec Ideal S256x128 .f32)
    (p : Fin 4000) (q : Fin 128) :
    k0_pay1 (F := Ideal) x w1 b1 w2 (ix2 p q) = ∑ k : Fin 256, hidden x w1 b1 p k * w2 (ix2 k q) := by
  unfold k0_pay1
  rw [productB_apply]
  refine Finset.sum_congr rfl fun k _ => ?_
  rw [truncf_apply, truncf_apply, maximumf_apply, addf_apply, productA_apply, biasRow_apply, broadcast_apply]
  simp only [hidden, truncf_apply, Ideal.ofBits_def, Ideal.ofBits_zero_f32]

end Cert.KernelIdeal.BodyValue

end
-- ==== Proof.DenseSpec.lean ====
/-
  The dense part of the layer, as one function of the whole arrays, entry by entry, over the extended reals:

    hidden[r, k]    = max(Σ_j x[r, j] · W1[j, k] + b1[k], 0)          (Linear + ReLU)
    projected[r, q] = Σ_k hidden[r, k] · W2[k, q]                      (the pre-aggregation projection)

  for r < 100000, k < 256, q < 128. Both programs compute `projected`: the reference with two whole matrix products, the
  kernel block of 4000 rows by block. No law beyond the definition of a matrix product as a sum is needed to join them:
  the row tiling does not cut the contracted axis.
-/
import Idealize.ShloMosaic.PureOps.Ideal
import Idealize.ShloMosaic.Lib.ValueIdx

noncomputable section

namespace Cert.DenseSpec

open Idealize.ShloMosaic Idealize.ShloMosaic.ValueIdx

/-- `max(Σ_j x[r, j] · W1[j, k] + b1[k], 0)`. -/
def hidden (x : (⟨2, ![100000, 256]⟩ : Shape).Idx → EReal) (w1 : (⟨2, ![256, 256]⟩ : Shape).Idx → EReal)
    (b1 : (⟨1, ![256]⟩ : Shape).Idx → EReal) (r : Fin 100000) (k : Fin 256) : EReal :=
  max ((∑ j : Fin 256, x (ix2 r j) * w1 (ix2 j k)) + b1 (ix1 k)) 0

/-- `Σ_k hidden[r, k] · W2[k, q]` at the entry `i = (r, q)`. -/
def projected (x : (⟨2, ![100000, 256]⟩ : Shape).Idx → EReal) (w1 : (⟨2, ![256, 256]⟩ : Shape).Idx → EReal)
    (b1 : (⟨1, ![256]⟩ : Shape).Idx → EReal) (w2 : (⟨2, ![256, 128]⟩ : Shape).Idx → EReal) :
    (⟨2, ![100000, 128]⟩ : Shape).Idx → EReal :=
  fun i => ∑ k : Fin 256, hidden x w1 b1 (i 0) k * w2 (ix2 k (i 1))

end Cert.DenseSpec

end
-- ==== Proof.KernelArray.lean ====
/-
  The region's output array after the 25 grid points: `DenseSpec.projected` of the arguments.

  Point `t` reads rows `4000 t … 4000 t + 3999` of `x` and the whole of `W1`, the bias row and `W2`, and writes rows
  `4000 t … 4000 t + 3999` of the output; row `r` of the output is therefore written by point `r / 4000`, from row `r` of
  `x`: the 25 blocks tile the 100000 rows and each is the restriction of one whole-array function.
-/
import proofs.«415539_j64484638982599_1_alg».proof.Proof.Gen.KernelIdeal.Frame
import proofs.«415539_j64484638982599_1_alg».proof.Proof.BodyValue
import proofs.«415539_j64484638982599_1_alg».proof.Proof.DenseSpec
import Idealize.ShloMosaic.Lib.Pipeline.Value
import Idealize.ShloMosaic.Lib.StableHlo.Run

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem origin : (![0, 0] : Fin 2 → Nat) = fun _ => 0 := funext fun a => by fin_cases a <;> rfl

/-- The printed index maps over the 25 grid points: the node-feature window and the output window move down the rows with
    the point, every other window stays on its one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each window's block at a point, as entries of its array -/

/-- The four input blocks of point `t`, at their literal shapes. -/
abbrev xBlk (c : Dev nD) (t : Fin cfg0.N) : Vec Ideal S4000x256 .f32 := iblk m c 0 t
abbrev w1Blk (c : Dev nD) (t : Fin cfg0.N) : Vec Ideal S256x256 .f32 := iblk m c 1 t
abbrev b1Blk (c : Dev nD) (t : Fin cfg0.N) : Vec Ideal S1x256 .f32 := iblk m c 2 t
abbrev w2Blk (c : Dev nD) (t : Fin cfg0.N) : Vec Ideal S256x128 .f32 := iblk m c 3 t
/-- The four arrays as the region finds them, at their literal shapes. -/
abbrev xArr (c : Dev nD) : S100000x256.Idx → EReal := V m c main_arg0
abbrev w1Arr (c : Dev nD) : S256x256.Idx → EReal := V m c main_arg2
abbrev b1Row (c : Dev nD) : S1x256.Idx → EReal := V m c main_v0
abbrev w2Arr (c : Dev nD) : S256x128.Idx → EReal := V m c main_arg4
abbrev b1Vec (c : Dev nD) : S256.Idx → EReal := m ((c : Thread nD τ).loc main_arg3)

/-- Row `p` of point `t`'s block of node features is row `4000 t + p` of the array. -/
theorem features_block (c : Dev nD) (t : Fin cfg0.N) (p : Fin 4000) (j : Fin 256) (r : Fin 100000) (hr : r.val = 4000 * t.val + p.val) :
    xBlk m c t (ix2 p j) = xArr m c (ix2 r j) := by
  obtain ⟨h0, h1, -⟩ := block_indices t
  unfold xBlk xArr iblk
  rw [View.read_apply]
  show V m c main_arg0 _ = V m c main_arg0 _
  congr 1
  funext a
  apply Fin.ext
  match a with
  | ⟨0, _⟩ => show win0_0.index t 0 * 4000 + 1 * p.val = r.val; rw [h0, hr]; omega
  | ⟨1, _⟩ => show win0_0.index t 1 * 256 + 1 * j.val = j.val; rw [h1]; omega

/-- The first weight matrix's one block is the matrix. -/
theorem w1_block (c : Dev nD) (t : Fin cfg0.N) (j k : Fin 256) :
    w1Blk m c t (ix2 j k) = w1Arr m c (ix2 j k) := by
  obtain ⟨-, -, h0, h1, -⟩ := block_indices t
  unfold w1Blk w1Arr iblk
  rw [View.read_apply]
  show V m c main_arg2 _ = V m c main_arg2 _
  congr 1
  funext a
  apply Fin.ext
  match a with
  | ⟨0, _⟩ => show win0_1.index t 0 * 256 + 1 * j.val = j.val; rw [h0]; omega
  | ⟨1, _⟩ => show win0_1.index t 1 * 256 + 1 * k.val = k.val; rw [h1]; omega

/-- The bias row's one block is the row. -/
theorem b1_block (c : Dev nD) (t : Fin cfg0.N) (k : Fin 256) :
    b1Blk m c t (ix2 (0 : Fin 1) k) = b1Row m c (ix2 (0 : Fin 1) k) := by
  obtain ⟨-, -, -, -, h0, h1, -⟩ := block_indices t
  unfold b1Blk b1Row iblk
  rw [View.read_apply]
  show V m c main_v0 _ = V m c main_v0 _
  congr 1
  funext a
  apply Fin.ext
  match a with
  | ⟨0, _⟩ => show win0_2.index t 0 * 1 + 1 * 0 = 0; rw [h0]
  | ⟨1, _⟩ => show win0_2.index t 1 * 256 + 1 * k.val = k.val; rw [h1]; omega

/-- The second weight matrix's one block is the matrix. -/
theorem w2_block (c : Dev nD) (t : Fin cfg0.N) (k : Fin 256) (q : Fin 128) :
    w2Blk m c t (ix2 k q) = w2Arr m c (ix2 k q) := by
  obtain ⟨-, -, -, -, -, -, h0, h1, -⟩ := block_indices t
  unfold w2Blk w2Arr iblk
  rw [View.read_apply]
  show V m c main_arg4 _ = V m c main_arg4 _
  congr 1
  funext a
  apply Fin.ext
  match a with
  | ⟨0, _⟩ => show win0_3.index t 0 * 256 + 1 * k.val = k.val; rw [h0]; omega
  | ⟨1, _⟩ => show win0_3.index t 1 * 128 + 1 * q.val = q.val; rw [h1]; omega

/-! ## The bias row is the bias vector, reshaped by the one host line before the region -/

theorem biasRow_eq (c : Dev nD) :
    b1Row m c = shapeCast S1x256 (b1Vec m c) shapeCasts_S256_S1x256 := by
  show StableHlo.after hostOps0 (fun b => m (c, b)) (Proc.devRef .tc main_v0) = _
  after_results <;> rfl

theorem biasRow_apply (c : Dev nD) (k : Fin 256) :
    b1Row m c (ix2 (0 : Fin 1) k) = b1Vec m c (ix1 k) := by
  rw [biasRow_eq]
  refine (shapeCast_addUnit_apply ![256] _ _ (ix2 (0 : Fin 1) k)).trans ?_
  congr 1
  funext a
  match a with
  | ⟨0, _⟩ => rfl

/-! ## What a point writes back, the cover, the array -/

/-- The specification's projection of the arrays as the region finds them (the bias as launched). -/
abbrev spec (c : Dev nD) : S100000x128.Idx → EReal :=
  Cert.DenseSpec.projected (xArr m c) (w1Arr m c) (b1Vec m c) (w2Arr m c)

theorem spec_apply (c : Dev nD) (r : Fin 100000) (q : Fin 128) :
    spec m c (ix2 r q) = ∑ k : Fin 256, Cert.DenseSpec.hidden (xArr m c) (w1Arr m c) (b1Vec m c) r k * w2Arr m c (ix2 k q) := rfl

/-- The hidden activation computed from point `t`'s blocks at row `p` is the specification's at row `4000 t + p`. -/
theorem hidden_block (c : Dev nD) (t : Fin cfg0.N) (p : Fin 4000) (k : Fin 256) (r : Fin 100000) (hr : r.val = 4000 * t.val + p.val) :
    BodyValue.hidden (xBlk m c t) (w1Blk m c t) (b1Blk m c t) p k = Cert.DenseSpec.hidden (xArr m c) (w1Arr m c) (b1Vec m c) r k := by
  unfold BodyValue.hidden Cert.DenseSpec.hidden
  rw [b1_block, biasRow_apply]
  congr 2
  refine Finset.sum_congr rfl fun j _ => ?_
  rw [features_block m c t p j r hr, w1_block]

/-- The body's stored value at entry `(p, q)` of point `t`'s block is the projection at `(4000 t + p, q)`. -/
theorem block_entry (c : Dev nD) (t : Fin cfg0.N) (p : Fin 4000) (q : Fin 128) (r : Fin 100000) (hr : r.val = 4000 * t.val + p.val) :
    k0_pay1 (F := Ideal) (xBlk m c t) (w1Blk m c t) (b1Blk m c t) (w2Blk m c t) (ix2 p q) = spec m c (ix2 r q) := by
  rw [BodyValue.payload_apply (xBlk m c t) (w1Blk m c t) (b1Blk m c t) (w2Blk m c t) p q, spec_apply]
  refine Finset.sum_congr rfl fun k _ => ?_
  rw [w2_block, hidden_block m c t p k r hr]

/-- The same over any block index `y` and array index `i` with `i = (4000 t + y₀, y₁)`. -/
theorem block_value (c : Dev nD) (t : Fin cfg0.N) (y : S4000x128.Idx) (i : S100000x128.Idx)
    (h0 : (i 0).val = 4000 * t.val + (y 0).val) (h1 : (i 1).val = (y 1).val) :
    k0_pay1 (F := Ideal) (xBlk m c t) (w1Blk m c t) (b1Blk m c t) (w2Blk m c t) y = spec m c i := by
  obtain ⟨p, q, rfl⟩ : ∃ (p : Fin 4000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext h1
  exact block_entry m c t p s r h0

/-- Point `t` writes back rows `4000 t … 4000 t + 3999` of the projection. -/
theorem flushed_eq (c : Dev nD) (t : Fin cfg0.N) :
    (dats m 0 c).flushed 4 t = ((cfg0.win 4).blk t).view.read (Elt Ideal) (spec m c) := by
  show (cfg0.win 4).cut (grid0.coords t) ((dats m 0 c).after 4 t) = _
  rw [after0_4]
  unfold out0_4
  rw [View.canon_unit_zero origin]
  simp only [View.ld_unit_zero (S := S4000x256) origin, View.ld_unit_zero (S := S256x256) origin,
    View.ld_unit_zero (S := S1x256) origin, View.ld_unit_zero (S := S256x128) origin]
  obtain ⟨-, -, -, -, -, -, -, -, h0, h1⟩ := block_indices t
  funext y
  exact block_value m c t y (((cfg0.win 4).blk t).view.emb y)
    (by show win0_4.index t 0 * 4000 + 1 * (y 0).val = 4000 * t.val + (y 0).val; rw [h0]; omega)
    (by show win0_4.index t 1 * 128 + 1 * (y 1).val = (y 1).val; rw [h1]; omega)

/-- An entry is in point `t`'s output block iff each coordinate is in the block's range on its axis. -/
theorem mem_block (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v1).slice (win0_4.rect t)).set ↔ _
  rw [View.set_slice_whole, Rect.mem_set_unit]
  exact Iff.rfl

/-- Row `r` of the output is in the block of point `r / 4000`: the 25 blocks tile the array. -/
theorem covered (i : S100000x128.Idx) :
    ∃ t : Fin cfg0.N, (cfg0.win 4).flush t = true ∧ i ∈ ((cfg0.win 4).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by omega⟩, rfl⟩
  obtain ⟨-, -, -, -, -, -, -, -, h0, h1⟩ := block_indices t
  refine ⟨t, flush0_4 t, ?_⟩
  rw [mem_block]
  intro a
  match a with
  | ⟨0, _⟩ => show win0_4.index t 0 * 4000 ≤ (i 0).val ∧ (i 0).val < win0_4.index t 0 * 4000 + 4000; rw [h0, ht]; omega
  | ⟨1, _⟩ => show win0_4.index t 1 * 128 ≤ (i 1).val ∧ (i 1).val < win0_4.index t 1 * 128 + 128; rw [h1]; omega

/-- The output array after the region is the projection. -/
theorem final (c : Dev nD) : (dats m 0 c).arrAt 4 cfg0.N = spec m c :=
  (dats m 0 c).arrAt_eq_of_cover 4 (spec m c) (fun t _ => flushed_eq m c t) covered

end Cert.KernelIdeal.ArrayValue

end
-- ==== Proof.KernelRun.lean ====
/-
  The kernel program's run, read back: its result buffer ends at

    b2 + segment-sum by target of the filled take, at the normalised source ids, of `DenseSpec.projected x W1 b1 W2`,

  and its six argument arrays end as launched. The region's output array is the projection (the blocks tile the array);
  the host lines after the region are one function of that array, the edge list and the bias.
-/
import proofs.«415539_j64484638982599_1_alg».proof.Proof.Gen.KernelIdeal.Frame
import proofs.«415539_j64484638982599_1_alg».proof.Proof.HostTail
import proofs.«415539_j64484638982599_1_alg».proof.Proof.KernelArray

noncomputable section

namespace Cert.KernelIdeal.RunValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel program's result as a function of its launched arguments. -/
def result (c : Dev nD) : FVec Ideal S100000x128 .f32 :=
  HostTail.aggregate
    (HostTail.takeFill
      (Cert.DenseSpec.projected (m ((c : Thread nD τ).loc main_arg0)) (m ((c : Thread nD τ).loc main_arg2))
        (m ((c : Thread nD τ).loc main_arg3)) (m ((c : Thread nD τ).loc main_arg4)))
      (HostTail.rowOf (HostTail.srcIds (m ((c : Thread nD τ).loc main_arg1)))))
    (HostTail.dstIds (m ((c : Thread nD τ).loc main_arg1))) (m ((c : Thread nD τ).loc main_arg5))

/-- The region's output array, over the arguments as launched. -/
theorem region_output (c : Dev nD) :
    (dats m 0 c).arrAt 4 cfg0.N
      = Cert.DenseSpec.projected (m ((c : Thread nD τ).loc main_arg0)) (m ((c : Thread nD τ).loc main_arg2))
          (m ((c : Thread nD τ).loc main_arg3)) (m ((c : Thread nD τ).loc main_arg4)) := by
  rw [ArrayValue.final m c]
  show Cert.DenseSpec.projected (V m c main_arg0) (V m c main_arg2) _ (V m c main_arg4) = _
  rw [V_main_arg0, V_main_arg2, V_main_arg4]

/-- What the lines after the region leave in the result buffer. -/
theorem tail_value (c : Dev nD) :
    Pipeline.afterTail₀ cfgs (dats m) 0 (V0 m) [hostOps1, hostOps1_1, hostOps1_2] c main_v12 = result m c := by
  have hw : Pipeline.withArrays (cfgs 0).spec c (V0 m c) (fun w => (dats m 0 c).arrAt w (cfgs 0).N) (Proc.devRef .tc main_v1)
      = (dats m 0 c).arrAt 4 cfg0.N := Pipeline.withArrays_arr spec0 launch0.win.arr_inj c _ _ 4
  have he : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have hb : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀ result
  simp only [List.flatten_cons, List.flatten_nil, List.append_nil]
  rw [HostTail.after_tail, hw, he, hb, region_output]

/-- Every weakly fair execution of the kernel program terminates with the result buffer at `result` and the arguments as
    launched. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.IndexRange.lean ====
/-
  Under the precondition every source node id `s` lies in `[-100000, 100000)`. Its row number — `s + 100000` when
  `s < 0`, else `s` — then lies in `[0, 99999]` (no 32-bit wrap: `|s| ≤ 100000`), so the take's range test holds on every
  edge, the fill word is never selected, and the filled take is the plain gather of the rows.
-/
import proofs.«415539_j64484638982599_1_alg».proof.Proof.HostTail
import proofs.«415539_j64484638982599_1_alg».proof.Proof.Gen.Pre_finite_inputs
import Idealize.ShloMosaic.Lib.ReduceAll
import Idealize.ShloMosaic.Lib.ValueIdx
import Idealize.ShloMosaic.PureOps.Ideal

noncomputable section

namespace Cert.KernelIdeal.IndexRange

open Idealize.ShloMosaic Idealize.ShloMosaic.TcCoe Idealize.ShloMosaic.ValueIdx
open Cert.KernelIdeal Cert.KernelIdeal.Gen Cert.KernelIdeal.HostTail

/-! ## One word -/

theorem toInt_zero : (0#32 : BitVec 32).toInt = 0 := by decide
theorem toInt_count : (100000#32 : BitVec 32).toInt = 100000 := by decide
theorem toInt_last : (99999#32 : BitVec 32).toInt = 99999 := by decide
theorem toInt_negCount : (4294867296#32 : BitVec 32).toInt = -100000 := by decide

/-- A node id in `[-100000, 100000)`, normalised, is a row number in `[0, 99999]`. -/
theorem normalised_range (x : BitVec 32) (h : -100000 ≤ x.toInt ∧ x.toInt < 100000) :
    0 ≤ (Scalar.select (IntOp.cmpi .slt x 0#32) (IntOp.addi x 100000#32) x).toInt
      ∧ (Scalar.select (IntOp.cmpi .slt x 0#32) (IntOp.addi x 100000#32) x).toInt ≤ 99999 := by
  by_cases hx : x.toInt < 0
  · have hc : IntOp.cmpi .slt x 0#32 = 1#1 := IntOp.cmpi_slt.2 (by rw [toInt_zero]; exact hx)
    rw [hc, select_one]
    have e : (IntOp.addi x 100000#32).toInt = x.toInt + 100000 := by
      unfold IntOp.addi
      rw [BitVec.toInt_add, toInt_count]
      exact Int.bmod_eq_of_le (by omega) (by omega)
    rw [e]
    omega
  · have hc : ¬IntOp.cmpi .slt x 0#32 = 1#1 := fun hc => hx (by have := IntOp.cmpi_slt.1 hc; rwa [toInt_zero] at this)
    rw [eq_zero_of_ne_one hc, select_zero]
    omega

/-- The range test of a row number in `[0, 99999]` is true. -/
theorem range_test (x : BitVec 32) (h : 0 ≤ x.toInt ∧ x.toInt ≤ 99999) :
    IntOp.andi (IntOp.cmpi .sge x 0#32) (IntOp.cmpi .sle x 99999#32) = 1#1 :=
  IntOp.andi_eq_one.2 ⟨IntOp.cmpi_sge.2 (by rw [toInt_zero]; exact h.1), IntOp.cmpi_sle.2 (by rw [toInt_last]; exact h.2)⟩

/-- A fold of `and` from 1 over words that are all 1 is 1. -/
theorem foldl_and_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_and_ones f l fun n hn => h n (List.mem_cons_of_mem _ hn)

/-! ## The arrays -/

/-- Every row number of normalised ids in `[-100000, 100000)` is in `[0, 99999]`. -/
theorem rowOf_range (s : IVec S1600000 32) (hs : ∀ e, -100000 ≤ (s e).toInt ∧ (s e).toInt < 100000) (j : S1600000x1.Idx) :
    0 ≤ (rowOf s j).toInt ∧ (rowOf s j).toInt ≤ 99999 := by
  unfold rowOf broadcastInDim
  exact normalised_range _ (hs _)

/-- The take's range test is true on every edge whose row number is in range. -/
theorem inRange_true (r : IVec S1600000x1 32) (hr : ∀ j, 0 ≤ (r j).toInt ∧ (r j).toInt ≤ 99999) (e : S1600000.Idx) :
    inRange r e = 1#1 := by
  unfold inRange
  rw [Host.reduce_eq_foldl]
  exact foldl_and_ones _ _ fun n _ => range_test (r n) (hr n)

/-- With every row number in range the filled take is the gather. -/
theorem takeFill_eq_gather {F : FTy → Type} [FloatOps F] (hw : FVec F S100000x128 .f32) (r : IVec S1600000x1 32)
    (hr : ∀ j, 0 ≤ (r j).toInt ∧ (r j).toInt ≤ 99999) :
    takeFill hw r = Host.gather gather_S100000x128_S1600000x1_S1600000x128_1_0_n_n_0_1_1128 hw r := by
  funext i
  unfold takeFill
  rw [select_apply]
  have hm : broadcastInDim S1600000x128 ![0] bcast_S1600000_S1600000x128_0 (inRange r) i = 1#1 := by
    unfold broadcastInDim
    exact inRange_true r hr _
  rw [hm, select_one]

/-! ## The precondition read back -/

instance : Subsingleton S_.Idx := ⟨fun a b => funext fun d => d.elim0⟩

/-- The precondition's last two conjuncts: every source id is at least `-100000` and below `100000`. -/
theorem src_range_of_pre {F : FTy → Type} [FloatOps F] [Cert.Pre_finite_inputs.Facts]
    (a0 : FVec F S100000x256 .f32) (a1 : IVec S2x1600000 32) (a2 : FVec F S256x256 .f32) (a3 : FVec F S256 .f32)
    (a4 : FVec F S256x128 .f32) (a5 : FVec F S128 .f32)
    (h : Cert.Pre_finite_inputs.fn (F := F) a0 a1 a2 a3 a4 a5 = fun _ => 1#1) (e : S1600000.Idx) :
    -100000 ≤ (srcIds a1 e).toInt ∧ (srcIds a1 e).toInt < 100000 := by
  have h0 := congrFun h ix0
  dsimp only [Cert.Pre_finite_inputs.fn, Cert.Pre_finite_inputs.fn_part1, Cert.Pre_finite_inputs.fn_part2] at h0
  obtain ⟨h1, hlt⟩ := IntOp.andi_eq_one.1 h0
  obtain ⟨-, hge⟩ := IntOp.andi_eq_one.1 h1
  have glt := Host.reduce_andi_all _ _ _ _ _ hlt e
  have gge := Host.reduce_andi_all _ _ _ _ _ hge e
  have l1 := IntOp.cmpi_slt.1 glt
  have l2 := IntOp.cmpi_sge.1 gge
  refine ⟨?_, ?_⟩
  · have : (4294867296#32 : BitVec 32).toInt ≤ (srcIds a1 e).toInt := l2
    rwa [toInt_negCount] at this
  · have : (srcIds a1 e).toInt < (100000#32 : BitVec 32).toInt := l1
    rwa [toInt_count] at this

end Cert.KernelIdeal.IndexRange

end
-- ==== Proof.RefValue.lean ====
/-
  The reference's projection `relu(x @ W1 + b1) @ W2`, read entry by entry off its stages: it is `DenseSpec.projected`.
-/
import proofs.«415539_j64484638982599_1_alg».proof.Proof.Gen.ReferenceIdeal.Read
import proofs.«415539_j64484638982599_1_alg».proof.Proof.DenseSpec

noncomputable section

namespace Cert.ReferenceIdeal.RefValue

open Idealize.ShloMosaic Idealize.ShloMosaic.TcCoe Idealize.ShloMosaic.ValueIdx
open Cert.ReferenceIdeal Cert.ReferenceIdeal.Read

/-- The reference's `h @ W2` stage is the specification's projection of its arguments. -/
theorem projected_eq (x0 : FVec Ideal S100000x256 .f32) (x2 : FVec Ideal S256x256 .f32) (x3 : FVec Ideal S256 .f32)
    (x4 : FVec Ideal S256x128 .f32) :
    val_main_v5 (F := Ideal) x0 x2 x3 x4 = Cert.DenseSpec.projected x0 x2 x3 x4 := by
  funext i
  obtain ⟨r, q, rfl⟩ : ∃ (r : Fin 100000) (q : Fin 128), i = ix2 r q := ⟨i 0, i 1, eq_ix2 i⟩
  rw [val_main_v5_apply]
  unfold Cert.DenseSpec.projected
  refine Finset.sum_congr rfl fun k _ => ?_
  have e1 : lidx_main_v5 (ix2 r q) k = ix2 r k := funext fun a => by
    match a with
    | ⟨0, _⟩ => rfl
    | ⟨1, _⟩ => rfl
  have e2 : ridx_main_v5 (ix2 r q) k = ix2 k q := funext fun a => by
    match a with
    | ⟨0, _⟩ => rfl
    | ⟨1, _⟩ => rfl
  rw [e1, e2, val_main_v4_apply, val_main_v3_apply, val_main_v0_apply, val_main_v2_apply, val_main_v1_apply,
    val_main_call0_v0_apply, val_main_call0_cst_apply]
  have e3 : ∀ j : Fin 256, lidx_main_v0 (ix2 r k) j = ix2 r j := fun j => funext fun a => by
    match a with
    | ⟨0, _⟩ => rfl
    | ⟨1, _⟩ => rfl
  have e4 : ∀ j : Fin 256, ridx_main_v0 (ix2 r k) j = ix2 j k := fun j => funext fun a => by
    match a with
    | ⟨0, _⟩ => rfl
    | ⟨1, _⟩ => rfl
  have e5 : idx_main_v1 (idx_main_v2 (ix2 r k)) = ix1 k := funext fun a => by
    match a with
    | ⟨0, _⟩ => rfl
  simp only [e3, e4, e5, Cert.DenseSpec.hidden, Ideal.maximumf_def, Ideal.addf_def, Ideal.ofBits_def, Ideal.ofBits_zero_f32]

end Cert.ReferenceIdeal.RefValue

end
-- ==== Proof.Bridge.lean ====
/-
  The two programs' results are one function of the arguments when every source id is in `[-100000, 100000)`.

  The reference is `b2 + segment-sum by target of hw[row]` with `hw = relu(x @ W1 + b1) @ W2` and `row` the normalised source
  ids; the kernel program is the same with the filled take in place of the plain gather and with the projection computed
  block by block. Under the range hypothesis the fill is never selected (IndexRange), and the projections agree entry by
  entry (RefValue, KernelArray: both are `DenseSpec.projected`); what remains is the same chain of operations on both sides.
-/
import proofs.«415539_j64484638982599_1_alg».proof.Proof.Gen.ReferenceIdeal.Read
import proofs.«415539_j64484638982599_1_alg».proof.Proof.HostTail
import proofs.«415539_j64484638982599_1_alg».proof.Proof.IndexRange
import proofs.«415539_j64484638982599_1_alg».proof.Proof.RefValue

noncomputable section

namespace Cert.Bridge

open Idealize.ShloMosaic Idealize.ShloMosaic.TcCoe
open Cert.KernelIdeal.HostTail

-- compared as whole terms, never opened: each is a fold over 1.6 million indices
attribute [local irreducible] Host.reduce Host.gather Host.scatterAdd

/-- The reference's result stage is the kernel program's tail applied to the reference's own projection with the plain
    gather: the same operations in the same order. -/
theorem reference_spelling (x0 : FVec Ideal Cert.ReferenceIdeal.S100000x256 .f32) (x1 : IVec Cert.ReferenceIdeal.S2x1600000 32)
    (x2 : FVec Ideal Cert.ReferenceIdeal.S256x256 .f32) (x3 : FVec Ideal Cert.ReferenceIdeal.S256 .f32)
    (x4 : FVec Ideal Cert.ReferenceIdeal.S256x128 .f32) (x5 : FVec Ideal Cert.ReferenceIdeal.S128 .f32) :
    Cert.ReferenceIdeal.Read.val_main_v22 (F := Ideal) x0 x1 x2 x3 x4 x5
      = aggregate
          (Host.gather Cert.KernelIdeal.gather_S100000x128_S1600000x1_S1600000x128_1_0_n_n_0_1_1128
            (Cert.ReferenceIdeal.Read.val_main_v5 (F := Ideal) x0 x2 x3 x4) (rowOf (srcIds x1)))
          (dstIds x1) x5 := by
  unfold Cert.ReferenceIdeal.Read.val_main_v22 Cert.ReferenceIdeal.Read.val_main_v19 Cert.ReferenceIdeal.Read.val_main_v16
    aggregate
  rfl

/-- Under the range hypothesis the reference's result is the kernel program's result function. -/
theorem results_agree (x0 : FVec Ideal Cert.ReferenceIdeal.S100000x256 .f32) (x1 : IVec Cert.ReferenceIdeal.S2x1600000 32)
    (x2 : FVec Ideal Cert.ReferenceIdeal.S256x256 .f32) (x3 : FVec Ideal Cert.ReferenceIdeal.S256 .f32)
    (x4 : FVec Ideal Cert.ReferenceIdeal.S256x128 .f32) (x5 : FVec Ideal Cert.ReferenceIdeal.S128 .f32)
    (hsrc : ∀ e, -100000 ≤ (srcIds x1 e).toInt ∧ (srcIds x1 e).toInt < 100000) :
    Cert.ReferenceIdeal.Read.val_main_v22 (F := Ideal) x0 x1 x2 x3 x4 x5
      = aggregate (takeFill (Cert.DenseSpec.projected x0 x2 x3 x4) (rowOf (srcIds x1))) (dstIds x1) x5 := by
  rw [Cert.KernelIdeal.IndexRange.takeFill_eq_gather _ _ (Cert.KernelIdeal.IndexRange.rowOf_range _ hsrc),
    ← Cert.ReferenceIdeal.RefValue.projected_eq]
  exact reference_spelling x0 x1 x2 x3 x4 x5

end Cert.Bridge

end
-- ==== Proof.lean ====
/-
  The certificate of a two-layer graph convolution: `out = b2 + segment_sum(hw[src], dst)` with
  `hw = relu(x @ W1 + b1) @ W2`, the dense part a row-tiled TPU kernel (25 blocks of 4000 rows, bf16 operands: the identity
  on exact values), the message passing host operations on both sides.

  Precondition: the float inputs finite (not used: no law beyond reordering the terms of a matrix product is needed) and
  every source node id in `[-100000, 100000)`, the index range of the [100000, 128] table counted from either end. Outside it
  the reference's `hw[src]` indexes out of range (the gather clamps), while the kernel program's `jnp.take` writes its fill
  word: the two differ there, so the range is needed, and inside it the fill is never selected (Proof/IndexRange.lean).

  The modules: DenseSpec (the projection as one function), BodyValue (the kernel body at an entry), KernelArray (the blocks
  tile the array), HostTail (the host lines after the region as one function), KernelRun (the kernel program's run read
  back), RefValue (the reference's projection is the specification's), IndexRange, Bridge (the two results are one function).
  The frames of the two kernel programs are the generated ones; the reference's is its generated run with the result dropped.
-/
import proofs.«415539_j64484638982599_1_alg».proof.Defs
import proofs.«415539_j64484638982599_1_alg».proof.Proof.Gen.Kernel
import proofs.«415539_j64484638982599_1_alg».proof.Proof.Gen.Kernel.Skeleton
import proofs.«415539_j64484638982599_1_alg».proof.Proof.Gen.Kernel.Launch
import proofs.«415539_j64484638982599_1_alg».proof.Proof.Gen.Kernel.Points
import proofs.«415539_j64484638982599_1_alg».proof.Proof.Gen.Kernel.Frame
import proofs.«415539_j64484638982599_1_alg».proof.Proof.Gen.KernelIdeal
import proofs.«415539_j64484638982599_1_alg».proof.Proof.Gen.KernelIdeal.Skeleton
import proofs.«415539_j64484638982599_1_alg».proof.Proof.Gen.KernelIdeal.Launch
import proofs.«415539_j64484638982599_1_alg».proof.Proof.Gen.KernelIdeal.Points
import proofs.«415539_j64484638982599_1_alg».proof.Proof.Gen.KernelIdeal.Frame
import proofs.«415539_j64484638982599_1_alg».proof.Proof.Gen.ReferenceIdeal
import proofs.«415539_j64484638982599_1_alg».proof.Proof.Gen.Pre_finite_inputs
import proofs.«415539_j64484638982599_1_alg».proof.Proof.Gen.ReferenceIdeal.Run
import proofs.«415539_j64484638982599_1_alg».proof.Proof.Gen.ReferenceIdeal.Read
import proofs.«415539_j64484638982599_1_alg».proof.Proof.KernelRun
import proofs.«415539_j64484638982599_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result at one function of them: the kernel
    program's by its run read back, the reference's by its generated run and the bridge, which uses the precondition's
    range of the source ids. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v22_eq, e0, e1, e2, e3, e4, e5]
  exact Cert.Bridge.results_agree _ _ _ _ _ _
    (Cert.KernelIdeal.IndexRange.src_range_of_pre _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
